-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S4096x64x64 : Shape := ⟨3, ![4096, 64, 64]⟩
abbrev S2048x128 : Shape := ⟨2, ![2048, 128]⟩
abbrev S3x128x128 : Shape := ⟨3, ![3, 128, 128]⟩
abbrev S3x128 : Shape := ⟨2, ![3, 128]⟩
abbrev S_ : Shape := ⟨0, ![]⟩

class Facts : Prop where
  bcast_S_S4096x64x64 : S_.BroadcastsInDim S4096x64x64 (![] : Fin 0 → Fin S4096x64x64.rank)
  reducesTo_S4096x64x64_S_d0_1_2 : S4096x64x64.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : IVec S262144 32) (main_arg1 : FVec F S4096x64x64 .f32) (main_arg2 : FVec F S2048x128 .f32) (main_arg3 : FVec F S3x128x128 .f32) (main_arg4 : FVec F S3x128 .f32) : IVec S_ 1 :=
  let main_v0 : FVec F S4096x64x64 .f32 := Host.absf main_arg1
  let main_cst : FVec F S_ .f32 := constant S_ .f32 0x7F800000#32
  let main_v1 : FVec F S4096x64x64 .f32 := broadcastInDim S4096x64x64 ![] bcast_S_S4096x64x64 main_cst
  let main_v2 : IVec S4096x64x64 1 := cmpf .olt main_v0 main_v1
  let main_c : IVec S_ 1 := constantI S_ 1 1#1
  let main_v3 : IVec S_ 1 := (fun x v => Host.reduce IntOp.andi x v reducesTo_S4096x64x64_S_d0_1_2 h_S_) main_v2 main_c
  let main_v4 : FVec F S2048x128 .f32 := Host.absf main_arg2
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S262144 : Shape := ⟨1, ![262144]⟩
abbrev S4096x64x64 : Shape := ⟨3, ![4096, 64, 64]⟩
abbrev S2048x128 : Shape := ⟨2, ![2048, 128]⟩
abbrev S3x128x128 : Shape := ⟨3, ![3, 128, 128]⟩
abbrev S3x128 : Shape := ⟨2, ![3, 128]⟩
abbrev S_ : Shape := ⟨0, ![]⟩
abbrev S262144x1 : Shape := ⟨2, ![262144, 1]⟩
abbrev S262144x128 : Shape := ⟨2, ![262144, 128]⟩
abbrev S4096x64x128 : Shape := ⟨3, ![4096, 64, 128]⟩
abbrev S4096x128 : Shape := ⟨2, ![4096, 128]⟩
abbrev S256x64x128 : Shape := ⟨3, ![256, 64, 128]⟩
abbrev S256x64x64 : Shape := ⟨3, ![256, 64, 64]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S16384x128 : Shape := ⟨2, ![16384, 128]⟩

abbrev nBuf : Space → Nat
  | .hbm => 16
  | .vmem => 8
  | .smem => 0
  | _ => 0

abbrev bufTy : (tb : Table) → Fin (tcTables nBuf tb) → BufTy
  | .hbm, ⟨0, _⟩ => ⟨S262144, .i32⟩
  | .hbm, ⟨1, _⟩ => ⟨S4096x64x64, .f32⟩
  | .hbm, ⟨2, _⟩ => ⟨S2048x128, .f32⟩
  | .hbm, ⟨3, _⟩ => ⟨S3x128x128, .f32⟩
  | .hbm, ⟨4, _⟩ => ⟨S3x128, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x128, .f32⟩
  | .hbm, ⟨14, _⟩ => ⟨S4096x64x128, .f32⟩
  | .hbm, ⟨15, _⟩ => ⟨S4096x128, .f32⟩
  | .local _ .vmem, ⟨0, _⟩ => ⟨S256x64x128, .f32⟩
  | .local _ .vmem, ⟨1, _⟩ => ⟨S256x64x128, .f32⟩
  | .local _ .vmem, ⟨2, _⟩ => ⟨S256x64x64, .f32⟩
  | .local _ .vmem, ⟨3, _⟩ => ⟨S256x64x64, .f32⟩
  | .local _ .vmem, ⟨4, _⟩ => ⟨S3x128x128, .f32⟩
  | .local _ .vmem, ⟨5, _⟩ => ⟨S3x128, .f32⟩
  | .local _ .vmem, ⟨6, _⟩ => ⟨S256x128, .f32⟩
  | .local _ .vmem, ⟨7, _⟩ => ⟨S256x128, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  shapeCasts_S262144x128_S4096x64x128 : S262144x128.ShapeCasts S4096x64x128
  inb_S256x64x128_S256x64x128_0_0_0 : ∀ a, (![0, 0, 0] : Fin 3 → Nat) a + S256x64x128.size a ≤ S256x64x128.size a
  h_S256x64x128 : 0 < S256x64x128.numel
  shapeCasts_S256x64x128_S256x64x128 : S256x64x128.ShapeCasts S256x64x128
  inb_S256x64x64_S256x64x64_0_0_0 : ∀ a, (![0, 0, 0] : Fin 3 → Nat) a + S256x64x64.size a ≤ S256x64x64.size a
  h_S256x64x64 : 0 < S256x64x64.numel
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S256x64x128_S16384x128 : S256x64x128.ShapeCasts S16384x128
  transposes_S128x128_p1_0_S128x128 : S128x128.Transposes [1, 0] S128x128
  shapeCasts_S128_S1x128 : S128.ShapeCasts S1x128
  broadcasts_S1x128_S16384x128 : S1x128.Broadcasts S16384x128
  shapeCasts_S16384x128_S256x64x128 : S16384x128.ShapeCasts S256x64x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  reduces_S256x64x128_S256x128 : S256x64x128.Reduces [1] S256x128
  inb_S256x128_S256x128_0_0 : ∀ a, (![0, 0] : Fin 2 → Nat) a + S256x128.size a ≤ S256x128.size a
  h_S256x128 : 0 < S256x128.numel
  gather_S2048x128_S262144x1_S262144x128_1_0_n_n_0_1_1128_wf : GatherDims.WF S2048x128 S262144x1 S262144x128 [1] [0] [] [0] [] 1 ![1, 128]
  dot_S16384x128_S128x128_S16384x128_1_0_0_1_n_n_wf : DotDims.WF S16384x128 S128x128 S16384x128 [1] [0] [0] [1] [] []
  dot_S256x64x64_S256x64x128_S256x64x128_2_1_1_2_0_0_wf : DotDims.WF S256x64x64 S256x64x128 S256x64x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x128.size a ≤ S4096x64x128.size a
  hwx0_0 : ∀ i : grid0.Coords, EltTy.bits .f32 = 32 ∨ (Rect.block (s := S4096x64x128) S256x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x64.size a ≤ S4096x64x64.size a
  hwx0_1 : ∀ i : grid0.Coords, EltTy.bits .f32 = 32 ∨ (Rect.block (s := S4096x64x64) S256x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x128x128.size a
  hwx0_2 : ∀ i : grid0.Coords, EltTy.bits .f32 = 32 ∨ (Rect.block (s := S3x128x128) S3x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S4096x128.size a
  hwx0_4 : ∀ i : grid0.Coords, EltTy.bits .f32 = 32 ∨ (Rect.block (s := S4096x128) S256x128.size (cc0_transform_4 i) (hinb0_4 i)).WholeWords (EltTy.packing .f32)

variable [Facts₀]

def gather_S2048x128_S262144x1_S262144x128_1_0_n_n_0_1_1128 : GatherDims S2048x128 S262144x1 S262144x128 where
  offsetDims := [1]
  collapsedSliceDims := [0]
  operandBatchingDims := []
  startIndicesBatchingDims := []
  startIndexMap := [0]
  indexVectorDim := 1
  sliceSizes := ![1, 128]
  wf := gather_S2048x128_S262144x1_S262144x128_1_0_n_n_0_1_1128_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S256x64x64_S256x64x128_S256x64x128_2_1_1_2_0_0 : DotDims S256x64x64 S256x64x128 S256x64x128 where
  lhsContracting := [2]
  rhsContracting := [1]
  lhsNonContracting := [1]
  rhsNonContracting := [2]
  lhsBatch := [0]
  rhsBatch := [0]
  wf := dot_S256x64x64_S256x64x128_S256x64x128_2_1_1_2_0_0_wf

abbrev win0_0 : Pipeline.Window sig grid0 :=
  Pipeline.Window.ofSpec (Memref.whole main_v7) S256x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144 : Shape := ⟨1, ![262144]⟩
abbrev S4096x64x64 : Shape := ⟨3, ![4096, 64, 64]⟩
abbrev S2048x128 : Shape := ⟨2, ![2048, 128]⟩
abbrev S3x128x128 : Shape := ⟨3, ![3, 128, 128]⟩
abbrev S3x128 : Shape := ⟨2, ![3, 128]⟩
abbrev S_ : Shape := ⟨0, ![]⟩
abbrev S262144x1 : Shape := ⟨2, ![262144, 1]⟩
abbrev S262144x128 : Shape := ⟨2, ![262144, 128]⟩
abbrev S4096x64x128 : Shape := ⟨3, ![4096, 64, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x128 : Shape := ⟨3, ![1, 1, 128]⟩
abbrev S4096x128 : Shape := ⟨2, ![4096, 128]⟩

abbrev nBuf : Space → Nat
  | .hbm => 56
  | .vmem => 0
  | .smem => 0
  | _ => 0

abbrev bufTy : (tb : Table) → Fin (tcTables nBuf tb) → BufTy
  | .hbm, ⟨0, _⟩ => ⟨S262144, .i32⟩
  | .hbm, ⟨1, _⟩ => ⟨S4096x64x64, .f32⟩
  | .hbm, ⟨2, _⟩ => ⟨S2048x128, .f32⟩
  | .hbm, ⟨3, _⟩ => ⟨S3x128x128, .f32⟩
  | .hbm, ⟨4, _⟩ => ⟨S3x128, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x128, .f32⟩
  | .hbm, ⟨14, _⟩ => ⟨S4096x64x128, .f32⟩
  | .hbm, ⟨15, _⟩ => ⟨S1x128x128, .f32⟩
  | .hbm, ⟨16, _⟩ => ⟨S128x128, .f32⟩
  | .hbm, ⟨17, _⟩ => ⟨S4096x64x128, .f32⟩
  | .hbm, ⟨18, _⟩ => ⟨S1x128, .f32⟩
  | .hbm, ⟨19, _⟩ => ⟨S128, .f32⟩
  | .hbm, ⟨20, _⟩ => ⟨S1x1x128, .f32⟩
  | .hbm, ⟨21, _⟩ => ⟨S4096x64x128, .f32⟩
  | .hbm, ⟨22, _⟩ => ⟨S4096x64x128, .f32⟩
  | .hbm, ⟨23, _⟩ => ⟨S_, .f32⟩
  | .hbm, ⟨24, _⟩ => ⟨S4096x64x128, .f32⟩
  | .hbm, ⟨25, _⟩ => ⟨S4096x64x128, .f32⟩
  | .hbm, ⟨26, _⟩ => ⟨S4096x64x128, .f32⟩
  | .hbm, ⟨27, _⟩ => ⟨S4096x64x128, .f32⟩
  | .hbm, ⟨28, _⟩ => ⟨S1x128x128, .f32⟩
  | .hbm, ⟨29, _⟩ => ⟨S128x128, .f32⟩
  | .hbm, ⟨30, _⟩ => ⟨S4096x64x128, .f32⟩
  | .hbm, ⟨31, _⟩ => ⟨S1x128, .f32⟩
  | .hbm, ⟨32, _⟩ => ⟨S128, .f32⟩
  | .hbm, ⟨33, _⟩ => ⟨S1x1x128, .f32⟩
  | .hbm, ⟨34, _⟩ => ⟨S4096x64x128, .f32⟩
  | .hbm, ⟨35, _⟩ => ⟨S4096x64x128, .f32⟩
  | .hbm, ⟨36, _⟩ => ⟨S_, .f32⟩
  | .hbm, ⟨37, _⟩ => ⟨S4096x64x128, .f32⟩
  | .hbm, ⟨38, _⟩ => ⟨S4096x64x128, .f32⟩
  | .hbm, ⟨39, _⟩ => ⟨S4096x64x128, .f32⟩
  | .hbm, ⟨40, _⟩ => ⟨S4096x64x128, .f32⟩
  | .hbm, ⟨41, _⟩ => ⟨S1x128x128, .f32⟩
  | .hbm, ⟨42, _⟩ => ⟨S128x128, .f32⟩
  | .hbm, ⟨43, _⟩ => ⟨S4096x64x128, .f32⟩
  | .hbm, ⟨44, _⟩ => ⟨S1x128, .f32⟩
  | .hbm, ⟨45, _⟩ => ⟨S128, .f32⟩
  | .hbm, ⟨46, _⟩ => ⟨S1x1x128, .f32⟩
  | .hbm, ⟨47, _⟩ => ⟨S4096x64x128, .f32⟩
  | .hbm, ⟨48, _⟩ => ⟨S4096x64x128, .f32⟩
  | .hbm, ⟨49, _⟩ => ⟨S_, .f32⟩
  | .hbm, ⟨50, _⟩ => ⟨S4096x64x128, .f32⟩
  | .hbm, ⟨51, _⟩ => ⟨S4096x64x128, .f32⟩
  | .hbm, ⟨52, _⟩ => ⟨S4096x64x128, .f32⟩
  | .hbm, ⟨53, _⟩ => ⟨S4096x64x128, .f32⟩
  | .hbm, ⟨54, _⟩ => ⟨S_, .f32⟩
  | .hbm, ⟨55, _⟩ => ⟨S4096x128, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call1_cst : Ref sig .tc := ⟨.hbm, 36, rfl⟩
abbrev main_call1_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call2_cst : Ref sig .tc := ⟨.hbm, 49, rfl⟩
abbrev main_call2_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  shapeCasts_S262144x128_S4096x64x128 : S262144x128.ShapeCasts S4096x64x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x1x128_2 : S128.BroadcastsInDim S1x1x128 (![2] : Fin 1 → Fin S1x1x128.rank)
  bcast_S1x1x128_S4096x64x128_0_1_2 : S1x1x128.BroadcastsInDim S4096x64x128 (![0, 1, 2] : Fin 3 → Fin S4096x64x128.rank)
  bcast_S_S4096x64x128 : S_.BroadcastsInDim S4096x64x128 (![] : Fin 0 → Fin S4096x64x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reducesTo_S4096x64x128_S4096x128_d1 : S4096x64x128.ReducesTo [1] S4096x128
  h_S_ : 0 < S_.numel
  gather_S2048x128_S262144x1_S262144x128_1_0_n_n_0_1_1128_wf : GatherDims.WF S2048x128 S262144x1 S262144x128 [1] [0] [] [0] [] 1 ![1, 128]
  dot_S4096x64x128_S128x128_S4096x64x128_2_1_01_0_n_n_wf : DotDims.WF S4096x64x128 S128x128 S4096x64x128 [2] [1] [0, 1] [0] [] []
  dot_S4096x64x64_S4096x64x128_S4096x64x128_2_1_1_2_0_0_wf : DotDims.WF S4096x64x64 S4096x64x128 S4096x64x128 [2] [1] [1] [2] [0] [0]

variable [Facts₀]

def gather_S2048x128_S262144x1_S262144x128_1_0_n_n_0_1_1128 : GatherDims S2048x128 S262144x1 S262144x128 where
  offsetDims := [1]
  collapsedSliceDims := [0]
  operandBatchingDims := []
  startIndicesBatchingDims := []
  startIndexMap := [0]
  indexVectorDim := 1
  sliceSizes := ![1, 128]
  wf := gather_S2048x128_S262144x1_S262144x128_1_0_n_n_0_1_1128_wf
def dot_S4096x64x128_S128x128_S4096x64x128_2_1_01_0_n_n : DotDims S4096x64x128 S128x128 S4096x64x128 where
  lhsContracting := [2]
  rhsContracting := [1]
  lhsNonContracting := [0, 1]
  rhsNonContracting := [0]
  lhsBatch := []
  rhsBatch := []
  wf := dot_S4096x64x128_S128x128_S4096x64x128_2_1_01_0_n_n_wf
def dot_S4096x64x64_S4096x64x128_S4096x64x128_2_1_1_2_0_0 : DotDims S4096x64x64 S4096x64x128 S4096x64x128 where
  lhsContracting := [2]
  rhsContracting := [1]
  lhsNonContracting := [1]
  rhsNonContracting := [2]
  lhsBatch := [0]
  rhsBatch := [0]
  wf := dot_S4096x64x64_S4096x64x128_S4096x64x128_2_1_1_2_0_0_wf

class Facts : Prop extends Facts₀ where

variable [Facts]
-- ==== Proof.Spec.lean ====
/-
  The function both programs compute, graph by graph.

  A graph has 64 nodes carrying 128 features each (`h`), and a 64 × 64 matrix `A` of edge weights. One round of message
  passing first maps every node's features through an affine map and the rectifier,
      z n k = max (∑ e, h n e · W k e + b k) 0,
  and then adds to every node the weighted sum of all nodes' new features,
      h' i k = z i k + ∑ n, A i n · z n k.
  Three rounds with three weight matrices and three bias rows are applied, and the result is summed over the nodes.
  The 4096 graphs of a batch do not interact: entry (g, k) of the result is feature k of graph g's pooled vector.

  Everything is on the extended reals; nothing here needs more of them than that `+` and `·` are operations on them,
  since both programs form the very same sums and products.
-/
import Idealize.ShloMosaic.PureOps.Ideal
import Idealize.ShloMosaic.Lib.ValueIdx

noncomputable section

namespace Cert.Mpnn

open Idealize.ShloMosaic Idealize.ShloMosaic.ValueIdx

/-- The rectifier: the larger of `x` and zero, zero written as the value of the all-zero f32 word. -/
def relu (x : EReal) : EReal := max x (Ideal.ofBits .f32 0x00000000#32)

/-- The affine map of one round followed by the rectifier: node `n`'s new feature `k` is the rectified inner product of
    its old features with row `k` of `W`, shifted by `b k`. -/
def lin (W : Fin 128 → Fin 128 → EReal) (b : Fin 128 → EReal) (h : Fin 64 → Fin 128 → EReal) :
    Fin 64 → Fin 128 → EReal :=
  fun n k => relu ((∑ e : Fin 128, h n e * W k e) + b k)

/-- The aggregation of one round: every node keeps its features and receives every node's, weighted by row `i` of `A`. -/
def agg (A : Fin 64 → Fin 64 → EReal) (z : Fin 64 → Fin 128 → EReal) : Fin 64 → Fin 128 → EReal :=
  fun i k => z i k + ∑ n : Fin 64, A i n * z n k

/-- One round of message passing. -/
def layer (A : Fin 64 → Fin 64 → EReal) (W : Fin 128 → Fin 128 → EReal) (b : Fin 128 → EReal)
    (h : Fin 64 → Fin 128 → EReal) : Fin 64 → Fin 128 → EReal :=
  agg A (lin W b h)

/-- Three rounds, then the sum over the 64 nodes. -/
def pooled (A : Fin 64 → Fin 64 → EReal) (W : Fin 3 → Fin 128 → Fin 128 → EReal) (b : Fin 3 → Fin 128 → EReal)
    (h : Fin 64 → Fin 128 → EReal) : Fin 128 → EReal :=
  fun k => ∑ n : Fin 64, layer A (W 2) (b 2) (layer A (W 1) (b 1) (layer A (W 0) (b 0) h)) n k

/-- Entry (g, k) of the batch result from the batch's arrays: graph `g`'s slices of the node features and of the edge
    weights, the three weight matrices and bias rows. -/
def entry (h : (⟨3, ![4096, 64, 128]⟩ : Shape).Idx → EReal) (adj : (⟨3, ![4096, 64, 64]⟩ : Shape).Idx → EReal)
    (W : (⟨3, ![3, 128, 128]⟩ : Shape).Idx → EReal) (b : (⟨2, ![3, 128]⟩ : Shape).Idx → EReal)
    (g : Fin 4096) (k : Fin 128) : EReal :=
  pooled (fun i n => adj (ix3 g i n)) (fun l r e => W (ix3 l r e)) (fun l r => b (ix2 l r)) (fun n e => h (ix3 g n e)) k

/-- The batch result as one array. -/
def result (h : (⟨3, ![4096, 64, 128]⟩ : Shape).Idx → EReal) (adj : (⟨3, ![4096, 64, 64]⟩ : Shape).Idx → EReal)
    (W : (⟨3, ![3, 128, 128]⟩ : Shape).Idx → EReal) (b : (⟨2, ![3, 128]⟩ : Shape).Idx → EReal) :
    (⟨2, ![4096, 128]⟩ : Shape).Idx → EReal :=
  fun j => entry h adj W b (j 0) (j 1)

theorem result_ix2 (h : (⟨3, ![4096, 64, 128]⟩ : Shape).Idx → EReal) (adj : (⟨3, ![4096, 64, 64]⟩ : Shape).Idx → EReal)
    (W : (⟨3, ![3, 128, 128]⟩ : Shape).Idx → EReal) (b : (⟨2, ![3, 128]⟩ : Shape).Idx → EReal) (g : Fin 4096) (k : Fin 128) :
    result h adj W b (ix2 g k) = entry h adj W b g k := rfl

end Cert.Mpnn

end
-- ==== Proof.KernelOps.lean ====
/-
  The kernel body's layout and contraction operations, each read at one index.

  The body works on a block of 256 graphs. It flattens the block's node features [256, 64, 128] to [16384, 128] — row
  64·p + n is node n of graph p —, multiplies by a transposed weight matrix, adds a bias row to every row, and folds the
  rows back; it then contracts the edge weights [256, 64, 64] with the folded features graph by graph. Below, each of
  these is stated at an index given by its coordinates: the two reshapes, the transposed weight slice, the bias row
  broadcast to all rows, and the two matrix products as sums over the contracted coordinate.
-/
import proofs.«109007_j9388798509092_1_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Ops

open Cert.KernelIdeal Idealize.ShloMosaic Idealize.ShloMosaic.ValueIdx

/-- Row `64 p + n` of the flattened block: node `n` of graph `p`. -/
def row (p : Fin 256) (n : Fin 64) : Fin 16384 :=
  ⟨p.val * 64 + n.val, by have := p.isLt; have := n.isLt; omega⟩

/-- Flattening [256, 64, 128] to [16384, 128] puts entry (p, n, e) at (64 p + n, e). -/
theorem flatten_apply {α : Type} (x : S256x64x128.Idx → α) (hc : S256x64x128.ShapeCasts S16384x128)
    (p : Fin 256) (n : Fin 64) (e : Fin 128) :
    shapeCast S16384x128 x hc (ix2 (row p n) e) = x (ix3 p n e) :=
  shapeCast_apply x hc _ _ (by rw [Shape.rowMajor_val_three, Shape.rowMajor_val_two]; rfl)

/-- Folding [16384, 128] back to [256, 64, 128] reads entry (p, n, e) from (64 p + n, e). -/
theorem fold_apply {α : Type} (y : S16384x128.Idx → α) (hc : S16384x128.ShapeCasts S256x64x128)
    (p : Fin 256) (n : Fin 64) (e : Fin 128) :
    shapeCast S256x64x128 y hc (ix3 p n e) = y (ix2 (row p n) e) :=
  shapeCast_apply y hc _ _ (by rw [Shape.rowMajor_val_three, Shape.rowMajor_val_two]; rfl)

/-- The transposed weight slice: entry (e, k) of the transpose of a [1, 128, 128] slice viewed [128, 128] is the
    slice's entry (0, k, e). -/
theorem weightT_apply {α : Type} (w : S1x128x128.Idx → α) (hc : S1x128x128.ShapeCasts S128x128)
    (ht : S128x128.Transposes [1, 0] S128x128) (e k : Fin 128) :
    transpose S128x128 [1, 0] (shapeCast S128x128 w hc) ht (ix2 e k) = w (ix3 0 k e) := by
  refine (transpose_apply [1, 0] _ ht (ix2 e k) (ix2 k e) (fun b => ?_)).trans ?_
  · match b with
    | ⟨0, _⟩ => rfl
    | ⟨1, _⟩ => rfl
  · exact shapeCast_apply w hc _ _ (by
      rw [Shape.rowMajor_val_three, Shape.rowMajor_val_two]
      show (0 * 128 + k.val) * 128 + e.val = k.val * 128 + e.val
      omega)

/-- The bias row: a [1, 128] row viewed [128], viewed [1, 128] again and repeated over 16384 rows has the row's entry
    (0, k) at every (r, k). -/
theorem biasRows_apply {α : Type} (b : S1x128.Idx → α) (h1 : S1x128.ShapeCasts S128) (h2 : S128.ShapeCasts S1x128)
    (hb : S1x128.Broadcasts S16384x128) (r : Fin 16384) (k : Fin 128) :
    broadcastTo S16384x128 (shapeCast S1x128 (shapeCast S128 b h1) h2) hb (ix2 r k) = b (ix2 0 k) := by
  rw [shapeCast_shapeCast]
  exact broadcastTo_apply b hb _ _ (fun a => match a with
    | ⟨0, _⟩ => by show (0 : Nat) = if (1 : Nat) = 1 then 0 else _; rw [if_pos rfl]
    | ⟨1, _⟩ => by show k.val = if (128 : Nat) = 1 then 0 else k.val; rw [if_neg (by decide)])

/-! ## The product with the transposed weights: [16384, 128] × [128, 128] -/

theorem lhs_lin_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem lhs_lin_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhs_lin_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhs_lin_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- Into a zero accumulator, entry (r, k) of the product is the sum over the shared coordinate `e` of the left operand's
    (r, e) times the right operand's (e, k). -/
theorem linMatmul_apply (x : FVec Ideal S16384x128 .f32) (y : FVec Ideal S128x128 .f32) (r : Fin 16384) (k : Fin 128) :
    matmul dot_S16384x128_S128x128_S16384x128_1_0_0_1_n_n none x y (constant S16384x128 .f32 0x00000000#32) (ix2 r k)
      = ∑ e : Fin 128, x (ix2 r e) * y (ix2 e k) := by
  simp only [matmul]
  rw [Ideal.matmul_constant_zero_apply, ← Equiv.sum_comp (ValueIdx.contrEquiv1 dot_S16384x128_S128x128_S16384x128_1_0_0_1_n_n 128 rfl rfl).symm]
  refine Finset.sum_congr rfl fun e _ => ?_
  have he := ValueIdx.contrEquiv1_symm_val dot_S16384x128_S128x128_S16384x128_1_0_0_1_n_n 128 rfl rfl e
  have el : dot_S16384x128_S128x128_S16384x128_1_0_0_1_n_n.lhsIdx (ix2 r k) ((ValueIdx.contrEquiv1 dot_S16384x128_S128x128_S16384x128_1_0_0_1_n_n 128 rfl rfl).symm e) = ix2 r e := funext fun a => Fin.ext (by
    match a with
    | ⟨0, _⟩ => exact lhs_lin_0 _ _
    | ⟨1, _⟩ => exact (lhs_lin_1 _ _).trans he)
  have er : dot_S16384x128_S128x128_S16384x128_1_0_0_1_n_n.rhsIdx (ix2 r k) ((ValueIdx.contrEquiv1 dot_S16384x128_S128x128_S16384x128_1_0_0_1_n_n 128 rfl rfl).symm e) = ix2 e k := funext fun a => Fin.ext (by
    match a with
    | ⟨0, _⟩ => exact (rhs_lin_0 _ _).trans he
    | ⟨1, _⟩ => exact rhs_lin_1 _ _)
  rw [el, er]

/-! ## The product with the edge weights, graph by graph: [256, 64, 64] × [256, 64, 128] -/

theorem lhs_agg_0 (i : S256x64x128.Idx) (q : dot_S256x64x64_S256x64x128_S256x64x128_2_1_1_2_0_0.contr.Idx) :
    (dot_S256x64x64_S256x64x128_S256x64x128_2_1_1_2_0_0.lhsIdx i q 0).val = (i 0).val := by
  unfold DotDims.lhsIdx
  rw [dif_pos (show (0 : Fin S256x64x64.rank) ∈ dot_S256x64x64_S256x64x128_S256x64x128_2_1_1_2_0_0.lhsBatch by decide)]
  rfl
theorem lhs_agg_1 (i : S256x64x128.Idx) (q : dot_S256x64x64_S256x64x128_S256x64x128_2_1_1_2_0_0.contr.Idx) :
    (dot_S256x64x64_S256x64x128_S256x64x128_2_1_1_2_0_0.lhsIdx i q 1).val = (i 1).val := by
  unfold DotDims.lhsIdx
  rw [dif_neg (show ¬(1 : Fin S256x64x64.rank) ∈ dot_S256x64x64_S256x64x128_S256x64x128_2_1_1_2_0_0.lhsBatch by decide), dif_pos (show (1 : Fin S256x64x64.rank) ∈ dot_S256x64x64_S256x64x128_S256x64x128_2_1_1_2_0_0.lhsNonContracting by decide)]
  rfl
theorem lhs_agg_2 (i : S256x64x128.Idx) (q : dot_S256x64x64_S256x64x128_S256x64x128_2_1_1_2_0_0.contr.Idx) :
    (dot_S256x64x64_S256x64x128_S256x64x128_2_1_1_2_0_0.lhsIdx i q 2).val = (q ⟨0, by decide⟩).val :=
  dot_S256x64x64_S256x64x128_S256x64x128_2_1_1_2_0_0.lhsIdx_val_of_single rfl i q
theorem rhs_agg_0 (i : S256x64x128.Idx) (q : dot_S256x64x64_S256x64x128_S256x64x128_2_1_1_2_0_0.contr.Idx) :
    (dot_S256x64x64_S256x64x128_S256x64x128_2_1_1_2_0_0.rhsIdx i q 0).val = (i 0).val := by
  unfold DotDims.rhsIdx
  rw [dif_pos (show (0 : Fin S256x64x128.rank) ∈ dot_S256x64x64_S256x64x128_S256x64x128_2_1_1_2_0_0.rhsBatch by decide)]
  rfl
theorem rhs_agg_1 (i : S256x64x128.Idx) (q : dot_S256x64x64_S256x64x128_S256x64x128_2_1_1_2_0_0.contr.Idx) :
    (dot_S256x64x64_S256x64x128_S256x64x128_2_1_1_2_0_0.rhsIdx i q 1).val = (q ⟨0, by decide⟩).val :=
  dot_S256x64x64_S256x64x128_S256x64x128_2_1_1_2_0_0.rhsIdx_val_of_single rfl i q
theorem rhs_agg_2 (i : S256x64x128.Idx) (q : dot_S256x64x64_S256x64x128_S256x64x128_2_1_1_2_0_0.contr.Idx) :
    (dot_S256x64x64_S256x64x128_S256x64x128_2_1_1_2_0_0.rhsIdx i q 2).val = (i 2).val := by
  unfold DotDims.rhsIdx
  rw [dif_neg (show ¬(2 : Fin S256x64x128.rank) ∈ dot_S256x64x64_S256x64x128_S256x64x128_2_1_1_2_0_0.rhsBatch by decide), dif_pos (show (2 : Fin S256x64x128.rank) ∈ dot_S256x64x64_S256x64x128_S256x64x128_2_1_1_2_0_0.rhsNonContracting by decide)]
  rfl

/-- Into a zero accumulator, entry (p, i, k) of the graph-by-graph product is the sum over the nodes `n` of graph `p`'s
    edge weight (i, n) times its feature (n, k). -/
theorem aggMatmul_apply (a : FVec Ideal S256x64x64 .f32) (z : FVec Ideal S256x64x128 .f32) (p : Fin 256) (i : Fin 64) (k : Fin 128) :
    matmul dot_S256x64x64_S256x64x128_S256x64x128_2_1_1_2_0_0 none a z (constant S256x64x128 .f32 0x00000000#32) (ix3 p i k)
      = ∑ n : Fin 64, a (ix3 p i n) * z (ix3 p n k) := by
  simp only [matmul]
  rw [Ideal.matmul_constant_zero_apply, ← Equiv.sum_comp (ValueIdx.contrEquiv1 dot_S256x64x64_S256x64x128_S256x64x128_2_1_1_2_0_0 64 rfl rfl).symm]
  refine Finset.sum_congr rfl fun n _ => ?_
  have hn := ValueIdx.contrEquiv1_symm_val dot_S256x64x64_S256x64x128_S256x64x128_2_1_1_2_0_0 64 rfl rfl n
  have el : dot_S256x64x64_S256x64x128_S256x64x128_2_1_1_2_0_0.lhsIdx (ix3 p i k) ((ValueIdx.contrEquiv1 dot_S256x64x64_S256x64x128_S256x64x128_2_1_1_2_0_0 64 rfl rfl).symm n) = ix3 p i n := funext fun a => Fin.ext (by
    match a with
    | ⟨0, _⟩ => exact lhs_agg_0 _ _
    | ⟨1, _⟩ => exact lhs_agg_1 _ _
    | ⟨2, _⟩ => exact (lhs_agg_2 _ _).trans hn)
  have er : dot_S256x64x64_S256x64x128_S256x64x128_2_1_1_2_0_0.rhsIdx (ix3 p i k) ((ValueIdx.contrEquiv1 dot_S256x64x64_S256x64x128_S256x64x128_2_1_1_2_0_0 64 rfl rfl).symm n) = ix3 p n k := funext fun a => Fin.ext (by
    match a with
    | ⟨0, _⟩ => exact rhs_agg_0 _ _
    | ⟨1, _⟩ => exact (rhs_agg_1 _ _).trans hn
    | ⟨2, _⟩ => exact rhs_agg_2 _ _)
  rw [el, er]

end Cert.KernelIdeal.Ops

end
-- ==== Proof.KernelBlock.lean ====
/-
  What the kernel body stores for one block of 256 graphs, entry by entry.

  The body applies the same round of message passing three times (to the block's node features, then to each round's
  result) with the three weight slices and bias rows, and stores the sum over the nodes. Named here: the body's spelling
  of one round (`round`), the body's two payloads as rounds (`pay2_eq`, `pay1_eq`), one round at an index as the
  specification's `layer` of the block's graph `p` (`round_apply`), and the stored block's entry (p, k) as the
  specification's `pooled` of graph `p` (`stored_apply`).
-/
import proofs.«109007_j9388798509092_1_alg».proof.Proof.Gen.KernelIdeal.Frame
import proofs.«109007_j9388798509092_1_alg».proof.Proof.Spec
import proofs.«109007_j9388798509092_1_alg».proof.Proof.KernelOps

noncomputable section

namespace Cert.KernelIdeal.Block

open Cert.KernelIdeal Cert.KernelIdeal.Gen Cert.KernelIdeal.Ops Cert.Mpnn Idealize.ShloMosaic Idealize.ShloMosaic.ValueIdx

section AnyFloat
variable {F : FTy → Type} [FloatOps F]

/-- The affine map and the rectifier on the flattened block, as the body spells them: the product with the transposed
    weight slice, plus the bias row on every row, the larger of that and zero. -/
def linRows (x : FVec F S16384x128 .f32) (w : Vec F S1x128x128 .f32) (b : Vec F S1x128 .f32) : FVec F S16384x128 .f32 :=
  maximumf (addf (matmul dot_S16384x128_S128x128_S16384x128_1_0_0_1_n_n none x
        (transpose S128x128 [1, 0] (shapeCast S128x128 w shapeCasts_S1x128x128_S128x128) transposes_S128x128_p1_0_S128x128)
        (constant S16384x128 .f32 0x00000000#32))
      (broadcastTo S16384x128 (shapeCast S1x128 (shapeCast S128 b shapeCasts_S1x128_S128) shapeCasts_S128_S1x128) broadcasts_S1x128_S16384x128))
    (broadcast S16384x128 (Scalar.ofBits .f32 0x00000000#32))

/-- The rectified features folded back to [256, 64, 128]. -/
def linBlock (h : FVec F S256x64x128 .f32) (w : Vec F S1x128x128 .f32) (b : Vec F S1x128 .f32) : FVec F S256x64x128 .f32 :=
  shapeCast S256x64x128 (linRows (shapeCast S16384x128 h shapeCasts_S256x64x128_S16384x128) w b) shapeCasts_S16384x128_S256x64x128

/-- One round as the body spells it: the rectified features plus their graph-by-graph product with the edge weights. -/
def round (h : FVec F S256x64x128 .f32) (a : Vec F S256x64x64 .f32) (w : Vec F S1x128x128 .f32) (b : Vec F S1x128 .f32) :
    FVec F S256x64x128 .f32 :=
  addf (linBlock h w b)
    (matmul dot_S256x64x64_S256x64x128_S256x64x128_2_1_1_2_0_0 none a (linBlock h w b) (constant S256x64x128 .f32 0x00000000#32))

/-- The first payload is two rounds. -/
theorem pay2_eq (v0 : Vec F S256x64x128 .f32) (v2 : Vec F S256x64x64 .f32) (v3 : Vec F S1x128x128 .f32) (v5 : Vec F S1x128 .f32)
    (v18 : Vec F S1x128x128 .f32) (v20 : Vec F S1x128 .f32) :
    k0_pay2 v0 v2 v3 v5 v18 v20
      = round (round (shapeCast S256x64x128 v0 shapeCasts_S256x64x128_S256x64x128) v2 v3 v5) v2 v18 v20 := rfl

/-- The second payload is the third round summed over the nodes. -/
theorem pay1_eq (v2 : Vec F S256x64x64 .f32) (v32 : FVec F S256x64x128 .f32) (v33 : Vec F S1x128x128 .f32) (v35 : Vec F S1x128 .f32) :
    k0_pay1 v2 v32 v33 v35
      = multiReduction .add [1] S256x128 (round v32 v2 v33 v35) 0x00000000#32 reduces_S256x64x128_S256x128 (.inl rfl) rfl := rfl

end AnyFloat

/-- The rectified features of graph `p` of the block are the specification's `lin` of that graph's features. -/
theorem linBlock_apply (h : FVec Ideal S256x64x128 .f32) (w : FVec Ideal S1x128x128 .f32) (b : FVec Ideal S1x128 .f32)
    (p : Fin 256) (n : Fin 64) (k : Fin 128) :
    linBlock h w b (ix3 p n k)
      = lin (fun r e => w (ix3 0 r e)) (fun r => b (ix2 0 r)) (fun n e => h (ix3 p n e)) n k := by
  unfold linBlock
  rw [fold_apply]
  unfold linRows
  rw [maximumf_apply, addf_apply, linMatmul_apply, biasRows_apply, broadcast_apply]
  have hw : ∀ e : Fin 128, transpose S128x128 [1, 0] (shapeCast S128x128 w shapeCasts_S1x128x128_S128x128)
      transposes_S128x128_p1_0_S128x128 (ix2 e k) = w (ix3 0 k e) := fun e => weightT_apply w _ _ e k
  simp only [flatten_apply, hw]
  rfl

/-- One round on the block, at graph `p`, is the specification's round on that graph. -/
theorem round_apply (h : FVec Ideal S256x64x128 .f32) (a : FVec Ideal S256x64x64 .f32) (w : FVec Ideal S1x128x128 .f32)
    (b : FVec Ideal S1x128 .f32) (p : Fin 256) (i : Fin 64) (k : Fin 128) :
    round h a w b (ix3 p i k)
      = layer (fun i n => a (ix3 p i n)) (fun r e => w (ix3 0 r e)) (fun r => b (ix2 0 r)) (fun n e => h (ix3 p n e)) i k := by
  unfold round
  rw [addf_apply, aggMatmul_apply]
  simp only [linBlock_apply]
  rfl

/-- The sum over the nodes: entry (p, k) of the reduction over the middle axis is the sum over `n` of entry (p, n, k). -/
theorem poolSum_apply (src : FVec Ideal S256x64x128 .f32) (h : S256x64x128.Reduces [1] S256x128) (hφ : FKind.Formats .f32)
    (hacc : (0x00000000#32 : BitVec FTy.f32.bits) = FKind.add.neutral .f32 hφ) (p : Fin 256) (k : Fin 128) :
    multiReduction .add [1] S256x128 src 0x00000000#32 h hφ hacc (ix2 p k) = ∑ n : Fin 64, src (ix3 p n k) := by
  refine (Ideal.multiReduction_add_single src 0x00000000#32 h hφ hacc (ix2 p k)).trans ?_
  refine Finset.sum_congr rfl fun n _ => congrArg src (funext fun a => Fin.ext ?_)
  match a with
  | ⟨0, _⟩ => rfl
  | ⟨1, _⟩ => rfl
  | ⟨2, _⟩ => rfl

/-! ## The weight slices and bias rows the body loads -/

theorem hz3 : (![0, 0, 0] : Fin 3 → Nat) = fun _ => 0 := funext fun a => by fin_cases a <;> rfl
theorem hz2 : (![0, 0] : Fin 2 → Nat) = fun _ => 0 := funext fun a => by fin_cases a <;> rfl

/-- The weight slice loaded at offset `l` on the first axis is slice `l` of the weights. -/
theorem weightSlice_apply {α : Type} (x2 : S3x128x128.Idx → α) (l : Fin 3)
    (inb : ∀ a, (![l.val, 0, 0] : Fin 3 → Nat) a + S1x128x128.size a ≤ S3x128x128.size a) (r e : Fin 128) :
    (fun j : S1x128x128.Idx => x2 ((Rect.unit (s := S3x128x128) ![l.val, 0, 0] S1x128x128.size inb).toLoadRect.idx j)) (ix3 0 r e)
      = x2 (ix3 l r e) := by
  refine congrArg x2 (funext fun a => Fin.ext ?_)
  match a with
  | ⟨0, _⟩ => show l.val + 1 * 0 = l.val; omega
  | ⟨1, _⟩ => show 0 + 1 * r.val = r.val; omega
  | ⟨2, _⟩ => show 0 + 1 * e.val = e.val; omega

/-- The bias row loaded at offset `l` is row `l` of the biases. -/
theorem biasRow_apply {α : Type} (x3 : S3x128.Idx → α) (l : Fin 3)
    (inb : ∀ a, (![l.val, 0] : Fin 2 → Nat) a + S1x128.size a ≤ S3x128.size a) (r : Fin 128) :
    (fun j : S1x128.Idx => x3 ((Rect.unit (s := S3x128) ![l.val, 0] S1x128.size inb).toLoadRect.idx j)) (ix2 0 r)
      = x3 (ix2 l r) := by
  refine congrArg x3 (funext fun a => Fin.ext ?_)
  match a with
  | ⟨0, _⟩ => show l.val + 1 * 0 = l.val; omega
  | ⟨1, _⟩ => show 0 + 1 * r.val = r.val; omega

/-! ## The stored block -/

/-- Entry (p, k) of what the body stores, from the four staged blocks: graph `p`'s features and edge weights of the
    block through three rounds with weight slices 0, 1, 2 and bias rows 0, 1, 2, summed over the nodes. -/
theorem stored_apply (x0 : Vec Ideal S256x64x128 .f32) (x1 : Vec Ideal S256x64x64 .f32) (x2 : Vec Ideal S3x128x128 .f32)
    (x3 : Vec Ideal S3x128 .f32) (p : Fin 256) (k : Fin 128) :
    out0_4 x0 x1 x2 x3 (ix2 p k)
      = pooled (fun i n => x1 (ix3 p i n)) (fun l r e => x2 (ix3 l r e)) (fun l r => x3 (ix2 l r)) (fun n e => x0 (ix3 p n e)) k := by
  unfold out0_4
  rw [View.canon_unit_zero hz2]
  simp only [View.ld_unit_zero (S := S256x64x128) hz3, View.ld_unit_zero (S := S256x64x64) hz3]
  rw [pay1_eq, pay2_eq, shapeCast_self]
  refine (poolSum_apply _ _ _ _ p k).trans ?_
  have w0 : ∀ r e : Fin 128, (View.ld x2 r0_2 : S1x128x128.Idx → EReal) (ix3 0 r e) = x2 (ix3 0 r e) :=
    fun r e => weightSlice_apply x2 0 _ r e
  have w1 : ∀ r e : Fin 128, (View.ld x2 r0_4 : S1x128x128.Idx → EReal) (ix3 0 r e) = x2 (ix3 1 r e) :=
    fun r e => weightSlice_apply x2 1 _ r e
  have w2 : ∀ r e : Fin 128, (View.ld x2 r0_6 : S1x128x128.Idx → EReal) (ix3 0 r e) = x2 (ix3 2 r e) :=
    fun r e => weightSlice_apply x2 2 _ r e
  have b0 : ∀ r : Fin 128, (View.ld x3 r0_3 : S1x128.Idx → EReal) (ix2 0 r) = x3 (ix2 0 r) :=
    fun r => biasRow_apply x3 0 _ r
  have b1 : ∀ r : Fin 128, (View.ld x3 r0_5 : S1x128.Idx → EReal) (ix2 0 r) = x3 (ix2 1 r) :=
    fun r => biasRow_apply x3 1 _ r
  have b2 : ∀ r : Fin 128, (View.ld x3 r0_7 : S1x128.Idx → EReal) (ix2 0 r) = x3 (ix2 2 r) :=
    fun r => biasRow_apply x3 2 _ r
  simp only [round_apply, w0, w1, w2, b0, b1, b2]
  rfl

end Cert.KernelIdeal.Block

end
-- ==== Proof.KernelValue.lean ====
/-
  From the blocks to the array: after the kernel has run, its result array is the specification's result of the
  arrays the region finds.

  Grid point `t` stages graphs 256 t … 256 t + 255 of the node features and of the edge weights, all of the weights and
  biases, and writes back rows 256 t … 256 t + 255 of the result. So what point `t` writes back is block `t` of one
  whole-array function (`flushed_eq`), the sixteen blocks cover the result array (`cover`), and the array ends holding
  that function (`final`, `run`).
-/
import proofs.«109007_j9388798509092_1_alg».proof.Proof.Gen.KernelIdeal.Value
import proofs.«109007_j9388798509092_1_alg».proof.Proof.KernelBlock

noncomputable section

namespace Cert.KernelIdeal.Hand

open Cert.KernelIdeal Cert.KernelIdeal.Gen Cert.KernelIdeal.Value Cert.KernelIdeal.Block Cert.Mpnn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The array the kernel leaves: the specification's result of the gathered node features, the edge weights, the
    weights and the biases as the region finds them. -/
abbrev out (c : Dev nD) : Buf (Elt Ideal) ((c : Thread nD τ).loc main_v8) :=
  result (V m c main_v7) (V m c main_arg1) (V m c main_arg3) (V m c main_arg4)

/-- The printed index maps over the grid: the features, the edge weights and the result move with the point along
    their first axis; the weights and biases stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Graph `p` of point `t`'s feature block is graph `256 t + p` of the features. -/
theorem features_apply (c : Dev nD) (t : Fin cfg0.N) (p : Fin 256) (n : Fin 64) (e : Fin 128) (g : Fin 4096)
    (hg : g.val = t.val * 256 + p.val) :
    (iblk m c 0 t : Vec Ideal S256x64x128 .f32) (ix3 p n e) = (V m c main_v7 : S4096x64x128.Idx → EReal) (ix3 g n e) := by
  obtain ⟨a0, a1, a2, -⟩ := idx_facts t
  unfold iblk
  rw [View.read_apply]
  show V m c main_v7 _ = V m c main_v7 _
  refine congrArg (V m c main_v7) (funext fun a => Fin.ext ?_)
  match a with
  | ⟨0, _⟩ => show win0_0.index t (0 : Fin 3) * 256 + 1 * p.val = g.val; omega
  | ⟨1, _⟩ => show win0_0.index t (1 : Fin 3) * 64 + 1 * n.val = n.val; omega
  | ⟨2, _⟩ => show win0_0.index t (2 : Fin 3) * 128 + 1 * e.val = e.val; omega

/-- Graph `p` of point `t`'s edge-weight block is graph `256 t + p` of the edge weights. -/
theorem edges_apply (c : Dev nD) (t : Fin cfg0.N) (p : Fin 256) (i n : Fin 64) (g : Fin 4096)
    (hg : g.val = t.val * 256 + p.val) :
    (iblk m c 1 t : Vec Ideal S256x64x64 .f32) (ix3 p i n) = (V m c main_arg1 : S4096x64x64.Idx → EReal) (ix3 g i n) := by
  obtain ⟨-, -, -, b0, b1, b2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 256 + 1 * p.val = g.val; omega
  | ⟨1, _⟩ => show win0_1.index t (1 : Fin 3) * 64 + 1 * i.val = i.val; omega
  | ⟨2, _⟩ => show win0_1.index t (2 : Fin 3) * 64 + 1 * n.val = n.val; omega

/-- Every point's weight block is all of the weights. -/
theorem weights_apply (c : Dev nD) (t : Fin cfg0.N) (l : Fin 3) (r e : Fin 128) :
    (iblk m c 2 t : Vec Ideal S3x128x128 .f32) (ix3 l r e) = (V m c main_arg3 : S3x128x128.Idx → EReal) (ix3 l r e) := by
  obtain ⟨-, -, -, -, -, -, c0, c1, c2, -⟩ := idx_facts t
  unfold iblk
  rw [View.read_apply]
  show V m c main_arg3 _ = V m c main_arg3 _
  refine congrArg (V m c main_arg3) (funext fun a => Fin.ext ?_)
  match a with
  | ⟨0, _⟩ => show win0_2.index t (0 : Fin 3) * 3 + 1 * l.val = l.val; omega
  | ⟨1, _⟩ => show win0_2.index t (1 : Fin 3) * 128 + 1 * r.val = r.val; omega
  | ⟨2, _⟩ => show win0_2.index t (2 : Fin 3) * 128 + 1 * e.val = e.val; omega

/-- Every point's bias block is all of the biases. -/
theorem biases_apply (c : Dev nD) (t : Fin cfg0.N) (l : Fin 3) (r : Fin 128) :
    (iblk m c 3 t : Vec Ideal S3x128 .f32) (ix2 l r) = (V m c main_arg4 : S3x128.Idx → EReal) (ix2 l r) := by
  obtain ⟨-, -, -, -, -, -, -, -, -, d0, d1, -⟩ := idx_facts t
  unfold iblk
  rw [View.read_apply]
  show V m c main_arg4 _ = V m c main_arg4 _
  refine congrArg (V m c main_arg4) (funext fun a => Fin.ext ?_)
  match a with
  | ⟨0, _⟩ => show win0_3.index t (0 : Fin 2) * 3 + 1 * l.val = l.val; omega
  | ⟨1, _⟩ => show win0_3.index t (1 : Fin 2) * 128 + 1 * r.val = r.val; omega

/-- WHAT POINT `t` WRITES BACK is block `t` of the specification's result: row `p` of the stored block is graph
    `256 t + p`'s pooled features. -/
theorem flushed_eq (c : Dev nD) (t : Fin cfg0.N) :
    (dats m 0 c).flushed 4 t = ((cfg0.win 4).blk t).view.read (Elt Ideal) (out m c) := by
  rw [flushed4]
  obtain ⟨-, -, -, -, -, -, -, -, -, -, -, e0, e1⟩ := idx_facts t
  have hN : cfg0.N = 16 := N_0
  funext y
  obtain ⟨p, k, rfl⟩ : ∃ (p : Fin 256) (k : Fin 128), y = ix2 p k := ⟨y 0, y 1, eq_ix2 y⟩
  have hp := p.isLt
  have ht := t.isLt
  let g : Fin 4096 := ⟨t.val * 256 + p.val, by omega⟩
  have hg : g.val = t.val * 256 + p.val := rfl
  have hemb : ((cfg0.win 4).blk t).view.emb (ix2 p k) = (ix2 g k : S4096x128.Idx) := by
    funext a; apply Fin.ext
    match a with
    | ⟨0, _⟩ => show win0_4.index t (0 : Fin 2) * 256 + 1 * p.val = t.val * 256 + p.val; omega
    | ⟨1, _⟩ => show win0_4.index t (1 : Fin 2) * 128 + 1 * k.val = k.val; omega
  show out0_4 (iblk m c 0 t) (iblk m c 1 t) (iblk m c 2 t) (iblk m c 3 t) (ix2 p k) = out m c (((cfg0.win 4).blk t).view.emb (ix2 p k))
  rw [hemb]
  refine (stored_apply (iblk m c 0 t) (iblk m c 1 t) (iblk m c 2 t) (iblk m c 3 t) p k).trans ?_
  show _ = entry (V m c main_v7) (V m c main_arg1) (V m c main_arg3) (V m c main_arg4) g k
  unfold entry
  have h0 : (fun (n : Fin 64) (e : Fin 128) => (iblk m c 0 t : Vec Ideal S256x64x128 .f32) (ix3 p n e))
      = fun n e => (V m c main_v7 : S4096x64x128.Idx → EReal) (ix3 g n e) :=
    funext fun n => funext fun e => features_apply m c t p n e g hg
  have h1 : (fun (i n : Fin 64) => (iblk m c 1 t : Vec Ideal S256x64x64 .f32) (ix3 p i n))
      = fun i n => (V m c main_arg1 : S4096x64x64.Idx → EReal) (ix3 g i n) :=
    funext fun i => funext fun n => edges_apply m c t p i n g hg
  have h2 : (fun (l : Fin 3) (r e : Fin 128) => (iblk m c 2 t : Vec Ideal S3x128x128 .f32) (ix3 l r e))
      = fun l r e => (V m c main_arg3 : S3x128x128.Idx → EReal) (ix3 l r e) :=
    funext fun l => funext fun r => funext fun e => weights_apply m c t l r e
  have h3 : (fun (l : Fin 3) (r : Fin 128) => (iblk m c 3 t : Vec Ideal S3x128 .f32) (ix2 l r))
      = fun l r => (V m c main_arg4 : S3x128.Idx → EReal) (ix2 l r) :=
    funext fun l => funext fun r => biases_apply m c t l r
  rw [h0, h1, h2, h3]

/-- An index of the result array is in point `t`'s block iff each coordinate is in the block's range on its axis. -/
theorem mem_blk (t : Fin cfg0.N) (i : S4096x128.Idx) :
    i ∈ ((cfg0.win 4).blk t).view.set ↔ ∀ a : Fin 2, win0_4.index t a * S256x128.size a ≤ (i a).val ∧ (i a).val < win0_4.index t a * S256x128.size a + S256x128.size a := by
  show i ∈ ((View.whole main_v8).slice (win0_4.rect t)).set ↔ _
  rw [View.set_slice_whole, Rect.mem_set_unit]
  exact Iff.rfl

/-- The sixteen blocks cover the result array: row `r` is in the block of point `r / 256`. -/
theorem cover (i : S4096x128.Idx) :
    ∃ t : Fin cfg0.N, (cfg0.win 4).flush t = true ∧ i ∈ ((cfg0.win 4).blk t).view.set := by
  have hi0 : (i 0).val < 4096 := (i 0).isLt
  have hi1 : (i 1).val < 128 := (i 1).isLt
  have hN : cfg0.N = 16 := N_0
  let t : Fin cfg0.N := ⟨(i 0).val / 256, by omega⟩
  have ht : t.val = (i 0).val / 256 := rfl
  obtain ⟨-, -, -, -, -, -, -, -, -, -, -, e0, e1⟩ := idx_facts t
  refine ⟨t, flush0_4 t, ?_⟩
  rw [mem_blk]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 128 ≤ (i 1).val ∧ (i 1).val < win0_4.index t (1 : Fin 2) * 128 + 128; omega

/-- So the result array ends holding the specification's result. -/
theorem final (c : Dev nD) : (dats m 0 c).arrAt 4 cfg0.N = out m c :=
  (dats m 0 c).arrAt_eq_of_cover 4 (out m c) (fun t _ => flushed_eq m c t) cover

/-- The run, read: the result array at the specification's result, the arguments unchanged. -/
theorem run : θ_run defs (onTc (τ := τ) (main (F := Ideal))) ⟨m, fun _ => 0, ρ⟩ fun r => ∀ c : Dev nD,
      r.2.mem ((c : Thread nD τ).loc main_v8) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Hand

end
-- ==== Proof.RefValue.lean ====
/-
  The reference's result array is the specification, entry by entry.

  The reference applies each round to the whole batch [4096, 64, 128]: a contraction of the features with a weight
  slice, a bias row repeated over all graphs and nodes, the rectifier, a graph-by-graph contraction with the edge
  weights, a sum; after three rounds it sums over the nodes from a zero initial value. Named here: one round as the
  reference spells it (`round`) and the three rounds' stages as rounds (`v18_eq`, `v29_eq`, `v40_eq`); the two
  contractions as sums over the contracted coordinate; the round at graph `g` as the specification's `layer`; each
  round's weight slice, bias row and zero array at an index; and the result array as `Cert.Mpnn.result` of the gathered
  node features.
-/
import proofs.«109007_j9388798509092_1_alg».proof.Proof.Gen.ReferenceIdeal.Read
import proofs.«109007_j9388798509092_1_alg».proof.Proof.Spec

noncomputable section

namespace Cert.ReferenceIdeal.RefValue

open Cert.ReferenceIdeal Cert.ReferenceIdeal.Gen Cert.ReferenceIdeal.Read Cert.Mpnn Idealize.ShloMosaic Idealize.ShloMosaic.ValueIdx

section AnyFloat
variable {F : FTy → Type} [FloatOps F]

/-- The rectified features over the whole batch, as the reference spells them: the contraction with the weight slice,
    plus the repeated bias row, the larger of that and the zero array. -/
def linBatch (h : FVec F S4096x64x128 .f32) (w : FVec F S128x128 .f32) (bb zz : FVec F S4096x64x128 .f32) : FVec F S4096x64x128 .f32 :=
  maximumf (addf (Host.dotGeneral dot_S4096x64x128_S128x128_S4096x64x128_2_1_01_0_n_n none h w) bb) zz

/-- One round over the whole batch: the rectified features plus their graph-by-graph contraction with the edge weights. -/
def round (h : FVec F S4096x64x128 .f32) (a : FVec F S4096x64x64 .f32) (w : FVec F S128x128 .f32) (bb zz : FVec F S4096x64x128 .f32) :
    FVec F S4096x64x128 .f32 :=
  addf (linBatch h w bb zz) (Host.dotGeneral dot_S4096x64x64_S4096x64x128_S4096x64x128_2_1_1_2_0_0 none a (linBatch h w bb zz))

variable (x0 : (⟨S262144, .i32⟩ : BufTy).Contents (Elt F)) (x1 : (⟨S4096x64x64, .f32⟩ : BufTy).Contents (Elt F)) (x2 : (⟨S2048x128, .f32⟩ : BufTy).Contents (Elt F))
  (x3 : (⟨S3x128x128, .f32⟩ : BufTy).Contents (Elt F)) (x4 : (⟨S3x128, .f32⟩ : BufTy).Contents (Elt F))

/-- The first round's result is a round of the gathered features. -/
theorem v18_eq : val_main_v18 (F := F) x0 x1 x2 x3 x4
    = round (val_main_v7 (F := F) x0 x2) x1 (val_main_v9 (F := F) x3) (val_main_v14 (F := F) x4) (val_main_call0_v0 (F := F)) := rfl

/-- The second round's result is a round of the first's. -/
theorem v29_eq : val_main_v29 (F := F) x0 x1 x2 x3 x4
    = round (val_main_v18 (F := F) x0 x1 x2 x3 x4) x1 (val_main_v20 (F := F) x3) (val_main_v25 (F := F) x4) (val_main_call1_v0 (F := F)) := rfl

/-- The third round's result is a round of the second's. -/
theorem v40_eq : val_main_v40 (F := F) x0 x1 x2 x3 x4
    = round (val_main_v29 (F := F) x0 x1 x2 x3 x4) x1 (val_main_v31 (F := F) x3) (val_main_v36 (F := F) x4) (val_main_call2_v0 (F := F)) := rfl

end AnyFloat

/-! ## The two contractions at an index -/

/-- Entry (g, n, k) of the contraction with a weight matrix is the sum over `e` of feature (g, n, e) times weight (k, e). -/
theorem linDot_apply (x : FVec Ideal S4096x64x128 .f32) (y : FVec Ideal S128x128 .f32) (g : Fin 4096) (n : Fin 64) (k : Fin 128) :
    Host.dotGeneral dot_S4096x64x128_S128x128_S4096x64x128_2_1_01_0_n_n none x y (ix3 g n k) = ∑ e : Fin 128, x (ix3 g n e) * y (ix2 k e) := by
  simp only [Host.dotGeneral]
  rw [Ideal.dotGeneral_apply, ← Equiv.sum_comp (ValueIdx.contrEquiv1 dot_S4096x64x128_S128x128_S4096x64x128_2_1_01_0_n_n 128 rfl rfl).symm]
  refine Finset.sum_congr rfl fun e _ => ?_
  have he := ValueIdx.contrEquiv1_symm_val dot_S4096x64x128_S128x128_S4096x64x128_2_1_01_0_n_n 128 rfl rfl e
  have el : dot_S4096x64x128_S128x128_S4096x64x128_2_1_01_0_n_n.lhsIdx (ix3 g n k) ((ValueIdx.contrEquiv1 dot_S4096x64x128_S128x128_S4096x64x128_2_1_01_0_n_n 128 rfl rfl).symm e) = ix3 g n e := funext fun a => Fin.ext (by
    match a with
    | ⟨0, _⟩ => exact lhs_main_v10_0 _ _
    | ⟨1, _⟩ => exact lhs_main_v10_1 _ _
    | ⟨2, _⟩ => exact (lhs_main_v10_2 _ _).trans he)
  have er : dot_S4096x64x128_S128x128_S4096x64x128_2_1_01_0_n_n.rhsIdx (ix3 g n k) ((ValueIdx.contrEquiv1 dot_S4096x64x128_S128x128_S4096x64x128_2_1_01_0_n_n 128 rfl rfl).symm e) = ix2 k e := funext fun a => Fin.ext (by
    match a with
    | ⟨0, _⟩ => exact rhs_main_v10_0 _ _
    | ⟨1, _⟩ => exact (rhs_main_v10_1 _ _).trans he)
  rw [el, er]

/-- Entry (g, i, k) of the graph-by-graph contraction is the sum over the nodes `n` of graph `g`'s edge weight (i, n)
    times its feature (n, k). -/
theorem aggDot_apply (a : FVec Ideal S4096x64x64 .f32) (z : FVec Ideal S4096x64x128 .f32) (g : Fin 4096) (i : Fin 64) (k : Fin 128) :
    Host.dotGeneral dot_S4096x64x64_S4096x64x128_S4096x64x128_2_1_1_2_0_0 none a z (ix3 g i k) = ∑ n : Fin 64, a (ix3 g i n) * z (ix3 g n k) := by
  simp only [Host.dotGeneral]
  rw [Ideal.dotGeneral_apply, ← Equiv.sum_comp (ValueIdx.contrEquiv1 dot_S4096x64x64_S4096x64x128_S4096x64x128_2_1_1_2_0_0 64 rfl rfl).symm]
  refine Finset.sum_congr rfl fun n _ => ?_
  have hn := ValueIdx.contrEquiv1_symm_val dot_S4096x64x64_S4096x64x128_S4096x64x128_2_1_1_2_0_0 64 rfl rfl n
  have el : dot_S4096x64x64_S4096x64x128_S4096x64x128_2_1_1_2_0_0.lhsIdx (ix3 g i k) ((ValueIdx.contrEquiv1 dot_S4096x64x64_S4096x64x128_S4096x64x128_2_1_1_2_0_0 64 rfl rfl).symm n) = ix3 g i n := funext fun a => Fin.ext (by
    match a with
    | ⟨0, _⟩ => exact lhs_main_v17_0 _ _
    | ⟨1, _⟩ => exact lhs_main_v17_1 _ _
    | ⟨2, _⟩ => exact (lhs_main_v17_2 _ _).trans hn)
  have er : dot_S4096x64x64_S4096x64x128_S4096x64x128_2_1_1_2_0_0.rhsIdx (ix3 g i k) ((ValueIdx.contrEquiv1 dot_S4096x64x64_S4096x64x128_S4096x64x128_2_1_1_2_0_0 64 rfl rfl).symm n) = ix3 g n k := funext fun a => Fin.ext (by
    match a with
    | ⟨0, _⟩ => exact rhs_main_v17_0 _ _
    | ⟨1, _⟩ => exact (rhs_main_v17_1 _ _).trans hn
    | ⟨2, _⟩ => exact rhs_main_v17_2 _ _)
  rw [el, er]

/-! ## One round at a graph -/

/-- With the weight matrix, the repeated bias row and the zero array read at an index (`hw`, `hb`, `hz`), one round over
    the batch, at graph `g`, is the specification's round on that graph. -/
theorem round_apply (h : FVec Ideal S4096x64x128 .f32) (a : FVec Ideal S4096x64x64 .f32) (w : FVec Ideal S128x128 .f32)
    (bb zz : FVec Ideal S4096x64x128 .f32) (W : Fin 128 → Fin 128 → EReal) (B : Fin 128 → EReal)
    (hw : ∀ r e : Fin 128, w (ix2 r e) = W r e) (hb : ∀ (g : Fin 4096) (n : Fin 64) (k : Fin 128), bb (ix3 g n k) = B k)
    (hz : ∀ j, zz j = Ideal.ofBits .f32 0x00000000#32) (g : Fin 4096) (i : Fin 64) (k : Fin 128) :
    round h a w bb zz (ix3 g i k) = layer (fun i n => a (ix3 g i n)) W B (fun n e => h (ix3 g n e)) i k := by
  have hl : ∀ (n : Fin 64) (r : Fin 128), linBatch h w bb zz (ix3 g n r) = lin W B (fun n e => h (ix3 g n e)) n r := by
    intro n r
    unfold linBatch
    rw [maximumf_apply, addf_apply, linDot_apply, hb, hz]
    simp only [hw]
    rfl
  unfold round
  rw [addf_apply, aggDot_apply]
  simp only [hl]
  rfl

/-! ## Each round's weight slice, bias row and zero array -/

section Slices
variable (x3 : (⟨S3x128x128, .f32⟩ : BufTy).Contents (Elt Ideal)) (x4 : (⟨S3x128, .f32⟩ : BufTy).Contents (Elt Ideal))

theorem weight0_apply (r e : Fin 128) : val_main_v9 (F := Ideal) x3 (ix2 r e) = x3 (ix3 0 r e) := by
  rw [val_main_v9_apply, val_main_v8_apply]
  refine congrArg x3 (funext fun a => Fin.ext ?_)
  have := r.isLt; have := e.isLt
  match a with
  | ⟨0, _⟩ => rfl
  | ⟨1, _⟩ => show (r.val * 128 + e.val) / 128 % 128 = r.val; omega
  | ⟨2, _⟩ => show (r.val * 128 + e.val) % 128 = e.val; omega

theorem weight1_apply (r e : Fin 128) : val_main_v20 (F := Ideal) x3 (ix2 r e) = x3 (ix3 1 r e) := by
  rw [val_main_v20_apply, val_main_v19_apply]
  refine congrArg x3 (funext fun a => Fin.ext ?_)
  have := r.isLt; have := e.isLt
  match a with
  | ⟨0, _⟩ => rfl
  | ⟨1, _⟩ => show (r.val * 128 + e.val) / 128 % 128 = r.val; omega
  | ⟨2, _⟩ => show (r.val * 128 + e.val) % 128 = e.val; omega

theorem weight2_apply (r e : Fin 128) : val_main_v31 (F := Ideal) x3 (ix2 r e) = x3 (ix3 2 r e) := by
  rw [val_main_v31_apply, val_main_v30_apply]
  refine congrArg x3 (funext fun a => Fin.ext ?_)
  have := r.isLt; have := e.isLt
  match a with
  | ⟨0, _⟩ => rfl
  | ⟨1, _⟩ => show (r.val * 128 + e.val) / 128 % 128 = r.val; omega
  | ⟨2, _⟩ => show (r.val * 128 + e.val) % 128 = e.val; omega

theorem bias0_apply (g : Fin 4096) (n : Fin 64) (k : Fin 128) : val_main_v14 (F := Ideal) x4 (ix3 g n k) = x4 (ix2 0 k) := by
  rw [val_main_v14_apply, val_main_v13_apply, val_main_v12_apply, val_main_v11_apply]
  refine congrArg x4 (funext fun a => Fin.ext ?_)
  have := k.isLt
  match a with
  | ⟨0, _⟩ => rfl
  | ⟨1, _⟩ => show k.val % 128 = k.val; omega

theorem bias1_apply (g : Fin 4096) (n : Fin 64) (k : Fin 128) : val_main_v25 (F := Ideal) x4 (ix3 g n k) = x4 (ix2 1 k) := by
  rw [val_main_v25_apply, val_main_v24_apply, val_main_v23_apply, val_main_v22_apply]
  refine congrArg x4 (funext fun a => Fin.ext ?_)
  have := k.isLt
  match a with
  | ⟨0, _⟩ => rfl
  | ⟨1, _⟩ => show k.val % 128 = k.val; omega

theorem bias2_apply (g : Fin 4096) (n : Fin 64) (k : Fin 128) : val_main_v36 (F := Ideal) x4 (ix3 g n k) = x4 (ix2 2 k) := by
  rw [val_main_v36_apply, val_main_v35_apply, val_main_v34_apply, val_main_v33_apply]
  refine congrArg x4 (funext fun a => Fin.ext ?_)
  have := k.isLt
  match a with
  | ⟨0, _⟩ => rfl
  | ⟨1, _⟩ => show k.val % 128 = k.val; omega

end Slices

theorem zero0_apply (j : S4096x64x128.Idx) : val_main_call0_v0 (F := Ideal) j = Ideal.ofBits .f32 0x00000000#32 := by
  rw [val_main_call0_v0_apply, val_main_call0_cst_apply]; rfl
theorem zero1_apply (j : S4096x64x128.Idx) : val_main_call1_v0 (F := Ideal) j = Ideal.ofBits .f32 0x00000000#32 := by
  rw [val_main_call1_v0_apply, val_main_call1_cst_apply]; rfl
theorem zero2_apply (j : S4096x64x128.Idx) : val_main_call2_v0 (F := Ideal) j = Ideal.ofBits .f32 0x00000000#32 := by
  rw [val_main_call2_v0_apply, val_main_call2_cst_apply]; rfl

/-! ## The result array -/

/-- The reference's result array is the specification's result of the gathered node features, the edge weights, the
    weights and the biases. -/
theorem result_eq (x0 : (⟨S262144, .i32⟩ : BufTy).Contents (Elt Ideal)) (x1 : (⟨S4096x64x64, .f32⟩ : BufTy).Contents (Elt Ideal)) (x2 : (⟨S2048x128, .f32⟩ : BufTy).Contents (Elt Ideal))
    (x3 : (⟨S3x128x128, .f32⟩ : BufTy).Contents (Elt Ideal)) (x4 : (⟨S3x128, .f32⟩ : BufTy).Contents (Elt Ideal)) :
    val_main_v41 (F := Ideal) x0 x1 x2 x3 x4 = result (val_main_v7 (F := Ideal) x0 x2) x1 x3 x4 := by
  funext j
  obtain ⟨g, k, rfl⟩ : ∃ (g : Fin 4096) (k : Fin 128), j = ix2 g k := ⟨j 0, j 1, eq_ix2 j⟩
  rw [result_ix2, val_main_v41_apply, val_main_cst_apply]
  have hidx : ∀ n : Fin 64, idx_main_v41 (ix2 g k) n = ix3 g n k := fun n => funext fun a => Fin.ext (by
    match a with
    | ⟨0, _⟩ => rfl
    | ⟨1, _⟩ => rfl
    | ⟨2, _⟩ => rfl)
  simp only [hidx, v40_eq, v29_eq, v18_eq,
    round_apply _ _ _ _ _ _ _ (weight2_apply x3) (bias2_apply x4) zero2_apply,
    round_apply _ _ _ _ _ _ _ (weight1_apply x3) (bias1_apply x4) zero1_apply,
    round_apply _ _ _ _ _ _ _ (weight0_apply x3) (bias0_apply x4) zero0_apply]
  show Ideal.ofBits .f32 0x00000000#32 + _ = _
  rw [Ideal.ofBits_zero_f32, zero_add]
  rfl

end Cert.ReferenceIdeal.RefValue

end
-- ==== Proof.lean ====
/-
  The certificate of a three-round message-passing kernel against its reference.

  Both programs gather the node features from the embedding table by the same host operations, apply three rounds of
  message passing (an affine map and the rectifier, then every node plus the edge-weighted sum of all nodes) and sum over
  the nodes of each graph. The kernel does it on blocks of 256 graphs with the features flattened to rows; the reference
  on the whole batch. On the extended reals both form the same sums of the same products, so the results agree entry by
  entry with no condition on the inputs beyond the programs running: the kernel's result array is the specification's
  result of the arrays its region finds (Proof/KernelValue.lean), the reference's is the specification's result of its
  own gathered features (Proof/RefValue.lean), and the two gathered arrays are one term of the arguments (`gathered_eq`).
  The frames are the generated ones; the idealization rewrote nothing, so `preserves` is trivial.
-/
import proofs.«109007_j9388798509092_1_alg».proof.Defs
import proofs.«109007_j9388798509092_1_alg».proof.Proof.Gen.Kernel
import proofs.«109007_j9388798509092_1_alg».proof.Proof.Gen.Kernel.Skeleton
import proofs.«109007_j9388798509092_1_alg».proof.Proof.Gen.Kernel.Launch
import proofs.«109007_j9388798509092_1_alg».proof.Proof.Gen.Kernel.Points
import proofs.«109007_j9388798509092_1_alg».proof.Proof.Gen.Kernel.Frame
import proofs.«109007_j9388798509092_1_alg».proof.Proof.Gen.KernelIdeal
import proofs.«109007_j9388798509092_1_alg».proof.Proof.Gen.KernelIdeal.Skeleton
import proofs.«109007_j9388798509092_1_alg».proof.Proof.Gen.KernelIdeal.Launch
import proofs.«109007_j9388798509092_1_alg».proof.Proof.Gen.KernelIdeal.Points
import proofs.«109007_j9388798509092_1_alg».proof.Proof.Gen.KernelIdeal.Frame
import proofs.«109007_j9388798509092_1_alg».proof.Proof.Gen.ReferenceIdeal
import proofs.«109007_j9388798509092_1_alg».proof.Proof.Gen.Pre_finite_inputs
import proofs.«109007_j9388798509092_1_alg».proof.Proof.Gen.KernelIdeal.Value
import proofs.«109007_j9388798509092_1_alg».proof.Proof.Gen.ReferenceIdeal.Run
import proofs.«109007_j9388798509092_1_alg».proof.Proof.Gen.ReferenceIdeal.Read
import proofs.«109007_j9388798509092_1_alg».proof.Proof.KernelValue
import proofs.«109007_j9388798509092_1_alg».proof.Proof.RefValue
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem

/-- The node features the kernel's region finds — the embedding rows gathered at the wrapped indices, viewed
    [4096, 64, 128] — are the reference's gathered features of the same index and embedding arrays: one term. -/
theorem gathered_eq {F : FTy → Type} [FloatOps F]
    (m : (ℓ : Loc Cert.KernelIdeal.nD Cert.KernelIdeal.τ Cert.KernelIdeal.sig) → Buf (Elt F) ℓ) (c : Dev Cert.KernelIdeal.nD) :
    (Cert.KernelIdeal.Gen.V m c Cert.KernelIdeal.main_v7 : (⟨Cert.KernelIdeal.S4096x64x128, .f32⟩ : BufTy).Contents (Elt F))
      = Cert.ReferenceIdeal.Read.val_main_v7 (F := F)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  dsimp only [Cert.KernelIdeal.Gen.V, Cert.KernelIdeal.Gen.hostOps0]
  after_results
  rfl

/-- From memories agreeing on the arguments both programs run, and both result arrays are the specification's result
    of the same gathered features, edge weights, weights and biases. -/
theorem algebraic : Cert.algebraic_KernelIdeal_ReferenceIdeal := by
  intro m ρ m' ρ' _ hagree
  refine ⟨fun c => Cert.KernelIdeal.Hand.out m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefValue.result_eq]
  obtain ⟨h0, h1, h2, h3, h4⟩ := hagree c
  rw [h0, h1, h2, h3, h4]
  show Cert.Mpnn.result _ _ _ _ = Cert.Mpnn.result _ _ _ _
  rw [gathered_eq m c, Cert.KernelIdeal.Gen.V_main_arg1 m c, Cert.KernelIdeal.Gen.V_main_arg3 m c, Cert.KernelIdeal.Gen.V_main_arg4 m c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
